-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x64 : Shape := ⟨2, ![4096, 64]⟩
abbrev S64x128 : Shape := ⟨2, ![64, 128]⟩
abbrev S64 : Shape := ⟨1, ![64]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x4096 .f32) (main_arg1 : FVec F S4096x64 .f32) (main_arg2 : FVec F S64x128 .f32) (main_arg3 : FVec F S64 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x4096 : Shape := ⟨2, ![4096, 4096]⟩
abbrev S4096x64 : Shape := ⟨2, ![4096, 64]⟩
abbrev S64x128 : Shape := ⟨2, ![64, 128]⟩
abbrev S64 : Shape := ⟨1, ![64]⟩
abbrev S64x64 : Shape := ⟨2, ![64, 64]⟩
abbrev S64x4096 : Shape := ⟨2, ![64, 4096]⟩
abbrev S64x1 : Shape := ⟨2, ![64, 1]⟩
abbrev S1024x2048 : Shape := ⟨2, ![1024, 2048]⟩
abbrev S1024x64 : Shape := ⟨2, ![1024, 64]⟩
abbrev S64x1024 : Shape := ⟨2, ![64, 1024]⟩
abbrev S64x2048 : Shape := ⟨2, ![64, 2048]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64x4096, .f32⟩
  | .hbm, ⟨7, _⟩ => ⟨S64x1, .f32⟩
  | .hbm, ⟨8, _⟩ => ⟨S4096x64, .f32⟩
  | .local _ .vmem, ⟨0, _⟩ => ⟨S1024x2048, .f32⟩
  | .local _ .vmem, ⟨1, _⟩ => ⟨S1024x2048, .f32⟩
  | .local _ .vmem, ⟨2, _⟩ => ⟨S64x4096, .f32⟩
  | .local _ .vmem, ⟨3, _⟩ => ⟨S64x64, .f32⟩
  | .local _ .vmem, ⟨4, _⟩ => ⟨S64x64, .f32⟩
  | .local _ .vmem, ⟨5, _⟩ => ⟨S64x1, .f32⟩
  | .local _ .vmem, ⟨6, _⟩ => ⟨S1024x64, .f32⟩
  | .local _ .vmem, ⟨7, _⟩ => ⟨S1024x64, .f32⟩
  | .local _ .vmem, ⟨8, _⟩ => ⟨S64x4096, .bf16⟩
  | .local _ .vmem, ⟨9, _⟩ => ⟨S64x4096, .f32⟩
  | .local _ .vmem, ⟨10, _⟩ => ⟨S64x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let c0 : Index := 0#32
  let arg1 : BitVec 32 := BitVec.ofNat 32 (i 1).val
  let c2048_i32 : BitVec 32 := 2048#32
  let v5 : BitVec 32 := Scalar.muli arg1 c2048_i32
  let v6 : Index := Scalar.indexCast v5
  ![0, v6.toNat]
def k0_cond3 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_6 : BitVec 32 := 0#32
  let v16 : BitVec 1 := Scalar.cmpi .ne v15 c0_i32_6
  v16

def k0_off2 (i : grid0.Coords) : Fin 2 → Nat :=
  let c0_9 : Index := 0#32
  let arg0 : BitVec 32 := BitVec.ofNat 32 (i 0).val
  let c1024_i32 : BitVec 32 := 1024#32
  let v19 : BitVec 32 := Scalar.muli arg0 c1024_i32
  let v20 : Index := Scalar.indexCast v19
  ![0, v20.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S64x128_S64x64_0_0 : S64x128.Slices ![0, 0] S64x64
  slices_S64x128_S64x64_0_64 : S64x128.Slices ![0, 64] S64x64
  transposes_S4096x64_S64x4096_1_0 : S4096x64.Transposes [1, 0] S64x4096
  shapeCasts_S64_S64x1 : S64.ShapeCasts S64x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  packedbf16_S64x4096_S64x4096_0_0 : (Rect.unit (s := S64x4096) ![0, 0] S64x4096.size inb_S64x4096_S64x4096_0_0).PackedRows (EltTy.packing .bf16)
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  h_S64x2048 : 0 < S64x2048.numel
  inb_S1024x2048_S1024x2048_0_0 : ∀ a, (![0, 0] : Fin 2 → Nat) a + S1024x2048.size a ≤ S1024x2048.size a
  h_S1024x2048 : 0 < S1024x2048.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S1024x64_S1024x64_0_0 : ∀ a, (![0, 0] : Fin 2 → Nat) a + S1024x64.size a ≤ S1024x64.size a
  h_S1024x64 : 0 < S1024x64.numel
  dot_S64x64_S64x4096_S64x4096_1_0_0_1_n_n_wf : DotDims.WF S64x64 S64x4096 S64x4096 [1] [0] [0] [1] [] []
  dot_S64x2048_S1024x2048_S64x1024_1_1_0_0_n_n_wf : DotDims.WF S64x2048 S1024x2048 S64x1024 [1] [1] [0] [0] [] []
  hrank0 : 0 < grid0.rank
  k0_off1_inb : ∀ i : grid0.Coords, ∀ a, (k0_off1 i) a + S64x2048.size a ≤ S64x4096.size a
  k0_off2_inb : ∀ i : grid0.Coords, ∀ (k0_h3 : k0_cond3 i = 1#1), ∀ a, (k0_off2 i) a + S64x1024.size a ≤ S64x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x4096.size a
  hwx0_0 : ∀ i : grid0.Coords, EltTy.bits .f32 = 32 ∨ (Rect.block (s := S4096x4096) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S4096x64.size a
  hwx0_5 : ∀ i : grid0.Coords, EltTy.bits .f32 = 32 ∨ (Rect.block (s := S4096x64) S1024x64.size (cc0_transform_5 i) (hinb0_5 i)).WholeWords (EltTy.packing .f32)

variable [Facts₀]

def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x64 : Shape := ⟨2, ![4096, 64]⟩
abbrev S64x128 : Shape := ⟨2, ![64, 128]⟩
abbrev S64 : Shape := ⟨1, ![64]⟩
abbrev S4096x128 : Shape := ⟨2, ![4096, 128]⟩
abbrev S128x64 : Shape := ⟨2, ![128, 64]⟩
abbrev S1x64 : Shape := ⟨2, ![1, 64]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x64, .f32⟩
  | .hbm, ⟨2, _⟩ => ⟨S64x128, .f32⟩
  | .hbm, ⟨3, _⟩ => ⟨S64, .f32⟩
  | .hbm, ⟨4, _⟩ => ⟨S4096x64, .f32⟩
  | .hbm, ⟨5, _⟩ => ⟨S4096x128, .f32⟩
  | .hbm, ⟨6, _⟩ => ⟨S128x64, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  concatenates_S4096x64_S4096x64_S4096x128_d1 : Shape.Concatenates [S4096x64, S4096x64] S4096x128 1
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x64_S4096x64_1_0_0_1_n_n_wf : DotDims.WF S4096x4096 S4096x64 S4096x64 [1] [0] [0] [1] [] []
  dot_S4096x128_S128x64_S4096x64_1_0_0_1_n_n_wf : DotDims.WF S4096x128 S128x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.LibERealFold.lean ====
/-
  General lemmas on finite real values inside the extended reals: a finite sum of reals, and a
  minimum over a nonempty finite family of reals taken from the top element, stay real.
-/
import Mathlib.Data.EReal.Operations
import Mathlib.Order.Fin.Basic
import Mathlib.Algebra.BigOperators.Group.Finset.Basic
import Mathlib.Order.Lattice
import Mathlib.Data.Finset.Lattice.Fold

namespace ERealFold

/-- A finite sum of real values, read in the extended reals, is the real sum. -/
theorem coe_sum {ι : Type*} (s : Finset ι) (f : ι → ℝ) :
    ∑ i ∈ s, ((f i : ℝ) : EReal) = ((∑ i ∈ s, f i : ℝ) : EReal) := by
  -- by induction on the index set: the empty sum is zero on both sides, and adding one more index
  -- adds one real summand, which the inclusion of the reals respects
  induction s using Finset.cons_induction with
  | empty => rw [Finset.sum_empty, Finset.sum_empty, EReal.coe_zero]
  | cons a s ha ih => rw [Finset.sum_cons, Finset.sum_cons, ih, EReal.coe_add]

/-- The minimum, started from the top element, of a nonempty finite family of real values is the real minimum. -/
theorem fold_min_top_coe {ι : Type*} [Fintype ι] [Nonempty ι] (f : ι → ℝ) :
    (Finset.univ : Finset ι).fold min (⊤ : EReal) (fun i => ((f i : ℝ) : EReal))
      = ((Finset.univ.inf' Finset.univ_nonempty f : ℝ) : EReal) := by
  -- folding the binary minimum from the top element is the infimum of the family in the extended reals
  have hfold : (Finset.univ : Finset ι).fold min (⊤ : EReal) (fun i => ((f i : ℝ) : EReal))
      = Finset.univ.inf (fun i => ((f i : ℝ) : EReal)) := rfl
  -- over a nonempty index set that infimum needs no top element; and the inclusion of the reals is
  -- monotone, hence commutes with binary minima and so with the minimum of a nonempty finite family
  rw [hfold, ← Finset.inf'_eq_inf Finset.univ_nonempty]
  exact (Finset.apply_inf'_eq_inf'_comp Finset.univ_nonempty (fun x : ℝ => (x : EReal))
    (fun x y => EReal.coe_strictMono.monotone.map_inf x y)).symm

end ERealFold
-- ==== Proof.Spec.lean ====
/-
  The mathematics of the layer, index by index, over the extended reals.

  Inputs: a square operator L [4096, 4096], features x [4096, 64], weights W [64, 128] and a bias b [64]. Write
  W = [W₁ | W₂] for the two 64-column halves of W. The layer is the order-two Chebyshev feature map followed by a dense
  layer: with X = [x | L·x] (128 columns), the result is X·Wᵀ + b, that is

      out (r, o) = Σ_d x (r, d) · W₁ (o, d)  +  Σ_d (Σ_k L (r, k) · x (k, d)) · W₂ (o, d)  +  b (o).           (reference form)

  The other arrangement first projects the features, z (o, n) = Σ_d W₂ (o, d) · x (n, d) and
  ρ (o, n) = Σ_d W₁ (o, d) · x (n, d) + b (o), and then applies the operator to the projected features, the 4096 columns
  of L taken in two halves of 2048:

      out (r, o) = (Σ_{k < 2048} z (o, k) · L (r, k)  +  Σ_{k < 2048} z (o, 2048 + k) · L (r, 2048 + k))  +  ρ (o, r).   (projected form)

  The two forms agree because (L·x)·W₂ᵀ = L·(x·W₂ᵀ): exchanging the two finite sums and distributing the product over them.
  Distributivity fails at the infinities of the extended reals, so the law is proved for REAL entries (every entry of every
  input the inclusion of a real number), where it is the associativity of the matrix product.
-/
import Idealize.ShloMosaic.PureOps.Ideal.Laws
import Idealize.ShloMosaic.Lib.ValueIdx
import proofs.«136983_g17815524344015_cont_8to1_1399_24_alg».proof.Proof.LibERealFold

noncomputable section

namespace Cert.Spec

open Idealize.ShloMosaic Idealize.ShloMosaic.ValueIdx

/-- Column `j · 2048 + k` of a 4096-long axis: position `k` of half `j`. -/
def col (j : Fin 2) (k : Fin 2048) : Fin 4096 := ⟨j.val * 2048 + k.val, by omega⟩

/-- Column `d` of the left half of the 128 weight columns (the columns that meet x). -/
def wl (d : Fin 64) : Fin 128 := ⟨d.val, by omega⟩

/-- Column `64 + d` of the 128 weight columns: column `d` of the right half (the columns that meet L·x). -/
def wr (d : Fin 64) : Fin 128 := ⟨64 + d.val, by omega⟩

/-- A sum over the 4096 columns is the sum over its two halves. -/
theorem sum_halves {M : Type*} [AddCommMonoid M] (f : Fin 4096 → M) :
    ∑ k, f k = ∑ k : Fin 2048, f (col 0 k) + ∑ k : Fin 2048, f (col 1 k) := by
  rw [← Fin.sum_congr' f (show 2048 + 2048 = 4096 from rfl), Fin.sum_univ_add]
  congr 1 <;> exact Finset.sum_congr rfl fun k _ => congrArg f (Fin.ext (by simp [col]))

/-- A sum over the 128 weight columns is the sum over its two halves. -/
theorem sum_wide {M : Type*} [AddCommMonoid M] (f : Fin 128 → M) :
    ∑ c, f c = ∑ d : Fin 64, f (wl d) + ∑ d : Fin 64, f (wr d) := by
  rw [← Fin.sum_congr' f (show 64 + 64 = 128 from rfl), Fin.sum_univ_add]
  congr 1 <;> exact Finset.sum_congr rfl fun k _ => congrArg f (Fin.ext (by simp [wl, wr]))

/-- The law over the reals: the operator applied to the projected features, its columns in two halves, plus the projected
    bias term, is the dense layer of [x | L·x]. -/
theorem real_core (L : Fin 4096 → Fin 4096 → ℝ) (x : Fin 4096 → Fin 64 → ℝ) (W : Fin 64 → Fin 128 → ℝ) (b : Fin 64 → ℝ)
    (r : Fin 4096) (o : Fin 64) :
    ((∑ k : Fin 2048, (∑ d : Fin 64, W o (wr d) * x (col 0 k) d) * L r (col 0 k))
        + (∑ k : Fin 2048, (∑ d : Fin 64, W o (wr d) * x (col 1 k) d) * L r (col 1 k)))
      + ((∑ d : Fin 64, W o (wl d) * x r d) + b o)
    = ((∑ d : Fin 64, x r d * W o (wl d)) + (∑ d : Fin 64, (∑ k : Fin 4096, L r k * x k d) * W o (wr d))) + b o := by
  rw [← sum_halves (fun k => (∑ d : Fin 64, W o (wr d) * x k d) * L r k)]
  -- (x·W₂ᵀ) against a row of L, the two sums exchanged
  have h1 : ∑ k : Fin 4096, (∑ d : Fin 64, W o (wr d) * x k d) * L r k
      = ∑ d : Fin 64, (∑ k : Fin 4096, L r k * x k d) * W o (wr d) := by
    simp only [Finset.sum_mul]
    rw [Finset.sum_comm]
    exact Finset.sum_congr rfl fun d _ => Finset.sum_congr rfl fun k _ => by ring
  have h2 : ∑ d : Fin 64, W o (wl d) * x r d = ∑ d : Fin 64, x r d * W o (wl d) :=
    Finset.sum_congr rfl fun d _ => mul_comm _ _
  rw [h1, h2]; ring

/-! ## The two forms over the extended reals -/

abbrev SL : Shape := ⟨2, ![4096, 4096]⟩
abbrev SX : Shape := ⟨2, ![4096, 64]⟩
abbrev SW : Shape := ⟨2, ![64, 128]⟩
abbrev SB : Shape := ⟨1, ![64]⟩

/-- The projected features through the right half of the weights: z (o, n) = Σ_d W₂ (o, d) · x (n, d). -/
def zT (x : SX.Idx → EReal) (W : SW.Idx → EReal) (o : Fin 64) (n : Fin 4096) : EReal :=
  ∑ d : Fin 64, W (ix2 o (wr d)) * x (ix2 n d)

/-- The projected features through the left half of the weights, plus the bias: ρ (o, n) = Σ_d W₁ (o, d) · x (n, d) + b (o). -/
def rT (x : SX.Idx → EReal) (W : SW.Idx → EReal) (b : SB.Idx → EReal) (o : Fin 64) (n : Fin 4096) : EReal :=
  (∑ d : Fin 64, W (ix2 o (wl d)) * x (ix2 n d)) + b (ix1 o)

/-- One half of the operator applied to the projected features: Σ_{k < 2048} z (o, j·2048 + k) · L (r, j·2048 + k). -/
def part (L : SL.Idx → EReal) (x : SX.Idx → EReal) (W : SW.Idx → EReal) (j : Fin 2) (o : Fin 64) (r : Fin 4096) : EReal :=
  ∑ k : Fin 2048, zT x W o (col j k) * L (ix2 r (col j k))

/-- The projected form of the layer, at row `i 0` and output feature `i 1`. -/
def kerG (L : SL.Idx → EReal) (x : SX.Idx → EReal) (W : SW.Idx → EReal) (b : SB.Idx → EReal) : SX.Idx → EReal := fun i =>
  (part L x W 0 (i 1) (i 0) + part L x W 1 (i 1) (i 0)) + rT x W b (i 1) (i 0)

/-- The reference form of the layer, at row `i 0` and output feature `i 1`. -/
def refG (L : SL.Idx → EReal) (x : SX.Idx → EReal) (W : SW.Idx → EReal) (b : SB.Idx → EReal) : SX.Idx → EReal := fun i =>
  ((∑ d : Fin 64, x (ix2 (i 0) d) * W (ix2 (i 1) (wl d)))
      + (∑ d : Fin 64, (∑ k : Fin 4096, L (ix2 (i 0) k) * x (ix2 k d)) * W (ix2 (i 1) (wr d))))
    + b (ix1 (i 1))

/-- On real inputs the projected form is the reference form. -/
theorem kerG_eq_refG (L : SL.Idx → EReal) (x : SX.Idx → EReal) (W : SW.Idx → EReal) (b : SB.Idx → EReal)
    (hL : ∀ i, ∃ r : ℝ, L i = (r : EReal)) (hx : ∀ i, ∃ r : ℝ, x i = (r : EReal))
    (hW : ∀ i, ∃ r : ℝ, W i = (r : EReal)) (hb : ∀ i, ∃ r : ℝ, b i = (r : EReal)) :
    kerG L x W b = refG L x W b := by
  choose Lr hLr using hL
  choose xr hxr using hx
  choose Wr hWr using hW
  choose br hbr using hb
  funext i
  simp only [kerG, refG, part, zT, rT, hLr, hxr, hWr, hbr, ← EReal.coe_mul, ERealFold.coe_sum, ← EReal.coe_add]
  exact congrArg _ (real_core (fun r k => Lr (ix2 r k)) (fun n d => xr (ix2 n d)) (fun o c => Wr (ix2 o c))
    (fun o => br (ix1 o)) (i 0) (i 1))

end Cert.Spec

end
-- ==== Proof.FiniteInputs.lean ====
import proofs.«136983_g17815524344015_cont_8to1_1399_24_alg».proof.Pre_finite_inputs
import proofs.«136983_g17815524344015_cont_8to1_1399_24_alg».proof.Proof.Gen.Pre_finite_inputs
import Idealize.ShloMosaic.PureOps.Ideal.Laws
import Idealize.ShloMosaic.Lib.ReduceAll
import Idealize.ShloMosaic.Lib.ValueIdx

/-!
# Finite inputs are real inputs

The precondition `finite_inputs` says, of each of the four float inputs `a`, that `|a i| < +∞` at every
index `i`, and conjoins the four statements. At the ideal instance a float is an extended real, the
absolute value is `max x (-x)`, the comparison is the strict order of the extended reals, and the word
`0x7F800000` denotes `⊤`. An extended real is `⊥`, `⊤` or the inclusion of a real number; at `⊥` and at
`⊤` the absolute value is `⊤`, which is not strictly below `⊤`. So under the precondition every entry of
every input is the inclusion of a real number.

This is the only form in which the precondition is used: distributing a product over a finite sum holds
for real numbers and fails at the infinities (`⊤ * (1 + (-1)) = 0` against `⊤ * 1 + ⊤ * (-1) = ⊥`).
-/

namespace Cert.FiniteInputs
open Idealize.ShloMosaic Cert.Pre_finite_inputs

/-- The f32 word `0x7F800000` — sign bit clear, exponent all ones, fraction zero — denotes `+∞`. -/
theorem ofBits_pos_inf : Ideal.ofBits .f32 0x7F800000#32 = (⊤ : EReal) := by
  simp [Ideal.ofBits, Ideal.ieee]

/-- An extended real whose absolute value `max x (-x)` is strictly below `⊤` is a real number:
    at `⊥` the absolute value is `max ⊥ ⊤ = ⊤` and at `⊤` it is `max ⊤ ⊥ = ⊤`, neither below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The ordered comparison "less than" of two extended reals answers the word 1 only when the first is
    strictly below the second: otherwise it answers the word 0, and `0 ≠ 1`. -/
theorem lt_of_cmp_olt (a b : EReal) (h : Ideal.cmp .olt a b = 1#1) : a < b := by
  by_contra hn
  have e : Ideal.cmp .olt a b = BitVec.ofBool (decide (a < b)) := rfl
  rw [e, decide_eq_false hn] at h
  exact absurd h (by decide)

/-- One input, any shape. If the conjunction over ALL indices (a reduction by `and` into a result of one
    index) of the comparisons `|a i| < +∞` is the word 1, then each comparison is the word 1, so each
    `|a i|` is strictly below `⊤`, so each `a i` is the inclusion of a real number. -/
theorem real_of_all_abs_lt_inf {s u : Shape} {axes : List (Fin s.rank)} (a : FVec Ideal s .f32)
    (hb : S_.BroadcastsInDim s (![] : Fin 0 → Fin s.rank)) (hr : s.ReducesTo axes S_) (hu : 0 < u.numel)
    (init : IVec u 1) (j : S_.Idx)
    (e : Host.reduce IntOp.andi
          (cmpf .olt (Host.absf a) (broadcastInDim s ![] hb (constant (F := Ideal) S_ .f32 0x7F800000#32)))
          init hr hu j = 1#1) :
    ∀ i, ∃ r : ℝ, a i = (r : EReal) := by
  intro i
  -- the result shape has rank 0, hence exactly one index
  haveI : Subsingleton S_.Idx := ⟨fun p q => funext fun d => d.elim0⟩
  -- the conjunction is 1, so its conjunct at `i` is 1
  have hi := Host.reduce_andi_all _ init hr hu j e i
  -- that conjunct, read at `i`: the comparison of `max (a i) (-(a i))` with the value of the word
  have hi' : Ideal.cmp .olt (max (a i) (-(a i))) (Ideal.ofBits .f32 0x7F800000#32) = 1#1 := hi
  rw [ofBits_pos_inf] at hi'
  exact real_of_abs_lt_top _ (lt_of_cmp_olt _ _ hi')

/-- Under `finite_inputs`, read at the ideal instance, every entry of each of the four inputs is the
    inclusion of a real number. The predicate is `((P L ∧ P x) ∧ P W) ∧ P b` with `P a` the statement
    "`|a i| < +∞` for all `i`"; it is split into its four conjuncts and each is read by the lemma above. -/
theorem real_of_pre (L : FVec Ideal S4096x4096 .f32) (x : FVec Ideal S4096x64 .f32) (W : FVec Ideal S64x128 .f32)
    (b : FVec Ideal S64 .f32) (h : Cert.Pre_finite_inputs.fn (F := Ideal) L x W b = fun _ => 1#1) :
    (∀ i, ∃ r : ℝ, L i = (r : EReal)) ∧ (∀ i, ∃ r : ℝ, x i = (r : EReal)) ∧ (∀ i, ∃ r : ℝ, W i = (r : EReal))
      ∧ (∀ i, ∃ r : ℝ, b i = (r : EReal)) := by
  have h0 := congrFun h ValueIdx.ix0
  dsimp only [Cert.Pre_finite_inputs.fn, Cert.Pre_finite_inputs.fn_part1, andi] at h0
  obtain ⟨hLxW, hb⟩ := IntOp.andi_eq_one.1 h0
  obtain ⟨hLx, hW⟩ := IntOp.andi_eq_one.1 hLxW
  obtain ⟨hL, hx⟩ := IntOp.andi_eq_one.1 hLx
  exact ⟨real_of_all_abs_lt_inf L _ _ _ _ _ hL, real_of_all_abs_lt_inf x _ _ _ _ _ hx,
    real_of_all_abs_lt_inf W _ _ _ _ _ hW, real_of_all_abs_lt_inf b _ _ _ _ _ hb⟩

end Cert.FiniteInputs
-- ==== Proof.RefStage.lean ====
/-
  The reference's last stage, read at the extended reals, index by index.

  The reference joins the features x [4096, 64] and the operator applied to them, L·x [4096, 64], side by side into
  X = [x | L·x] [4096, 128], multiplies by the transposed weights, and adds the bias along the rows:

      out (r, o) = Σ_{c < 128} X (r, c) · Wᵀ (c, o) + b (o).

  Column c of X is column c of x when c < 64 and column c − 64 of L·x otherwise; Wᵀ (c, o) = W (o, c). Splitting the sum
  over the 128 columns into its two halves of 64 therefore gives

      out (r, o) = Σ_d x (r, d) · W (o, d)  +  Σ_d (Σ_k L (r, k) · x (k, d)) · W (o, 64 + d)  +  b (o),

  which is the reference form of the layer. Only the splitting of a finite sum into two halves is used: no
  distributivity, so nothing here asks the entries to be finite.
-/
import proofs.«136983_g17815524344015_cont_8to1_1399_24_alg».proof.Proof.Gen.ReferenceIdeal.Read
import proofs.«136983_g17815524344015_cont_8to1_1399_24_alg».proof.Proof.Spec
import Idealize.ShloMosaic.Lib.Pipeline.Value
import Idealize.ShloMosaic.Lib.ValueIdx
import Idealize.ShloMosaic.PureOps.Ideal.Laws

noncomputable section

namespace Cert.RefStage

open Idealize.ShloMosaic Idealize.ShloMosaic.ValueIdx Cert.ReferenceIdeal Cert.ReferenceIdeal.Gen

/-! ## The composed index functions at explicit coordinates -/

/-- Row r of the joined array, at column c: the left operand of the second product at output (r, o). -/
theorem lidx3_at (r : Fin 4096) (o : Fin 64) (c : Fin 128) :
    Read.lidx_main_v3 (ix2 r o) c = ix2 r c :=
  funext fun a => Fin.ext (by match a with | ⟨0, _⟩ => rfl | ⟨1, _⟩ => rfl)

/-- Row c of the transposed weights, at column o: the right operand of the second product at output (r, o). -/
theorem ridx3_at (r : Fin 4096) (o : Fin 64) (c : Fin 128) :
    Read.ridx_main_v3 (ix2 r o) c = ix2 c o :=
  funext fun a => Fin.ext (by match a with | ⟨0, _⟩ => rfl | ⟨1, _⟩ => rfl)

/-- The transposed weights at (c, o) are the weights at (o, c). -/
theorem idx2_at (c : Fin 128) (o : Fin 64) :
    Read.idx_main_v2 (ix2 c o) = ix2 o c :=
  funext fun a => Fin.ext (by match a with | ⟨0, _⟩ => rfl | ⟨1, _⟩ => rfl)

/-- Row r of the operator against column d of the features, at position k: the left operand of L·x at (r, d). -/
theorem lidx0_at (r : Fin 4096) (d : Fin 64) (k : Fin 4096) :
    Read.lidx_main_v0 (ix2 r d) k = ix2 r k :=
  funext fun a => Fin.ext (by match a with | ⟨0, _⟩ => rfl | ⟨1, _⟩ => rfl)

/-- … and the right operand of L·x at (r, d). -/
theorem ridx0_at (r : Fin 4096) (d : Fin 64) (k : Fin 4096) :
    Read.ridx_main_v0 (ix2 r d) k = ix2 k d :=
  funext fun a => Fin.ext (by match a with | ⟨0, _⟩ => rfl | ⟨1, _⟩ => rfl)

/-! ## The joined array [x | L·x] at a column of either half -/

/-- At a column of the left half the joined array is x. -/
theorem cat_left (L : FVec Ideal S4096x4096 .f32) (x : FVec Ideal S4096x64 .f32) (r : Fin 4096) (d : Fin 64) :
    Read.val_main_v1 (F := Ideal) L x (ix2 r (Cert.Spec.wl d)) = x (ix2 r d) := by
  unfold Read.val_main_v1
  exact concatenate_pair_apply_left 1 x (Read.val_main_v0 (F := Ideal) L x)
    concatenates_S4096x64_S4096x64_S4096x128_d1 (ix2 r (Cert.Spec.wl d)) rfl (ix2 r d) (fun b => by
      match b with
      | ⟨0, _⟩ => rfl
      | ⟨1, _⟩ => rfl)

/-- At column 64 + d of the right half the joined array is column d of L·x, the sum over the operator's row. -/
theorem cat_right (L : FVec Ideal S4096x4096 .f32) (x : FVec Ideal S4096x64 .f32) (r : Fin 4096) (d : Fin 64) :
    Read.val_main_v1 (F := Ideal) L x (ix2 r (Cert.Spec.wr d)) = ∑ k : Fin 4096, L (ix2 r k) * x (ix2 k d) := by
  have h : Read.val_main_v1 (F := Ideal) L x (ix2 r (Cert.Spec.wr d)) = Read.val_main_v0 (F := Ideal) L x (ix2 r d) := by
    unfold Read.val_main_v1
    exact concatenate_pair_apply_right 1 x (Read.val_main_v0 (F := Ideal) L x)
      concatenates_S4096x64_S4096x64_S4096x128_d1 (ix2 r (Cert.Spec.wr d)) rfl rfl (ix2 r d)
      (fun b hb => by
        match b with
        | ⟨0, _⟩ => rfl
        | ⟨1, _⟩ => exact absurd rfl hb)
      (by show d.val + 64 = 64 + d.val; omega)
  rw [h, Read.val_main_v0_apply]
  simp only [lidx0_at, ridx0_at]

/-! ## One term of the second product, in either half of the columns -/

/-- A term of the left half: x (r, d) · W (o, d). -/
theorem term_left (L : FVec Ideal S4096x4096 .f32) (x : FVec Ideal S4096x64 .f32) (W : FVec Ideal S64x128 .f32)
    (r : Fin 4096) (o d : Fin 64) :
    Read.val_main_v1 (F := Ideal) L x (Read.lidx_main_v3 (ix2 r o) (Cert.Spec.wl d))
        * Read.val_main_v2 (F := Ideal) W (Read.ridx_main_v3 (ix2 r o) (Cert.Spec.wl d))
      = x (ix2 r d) * W (ix2 o (Cert.Spec.wl d)) := by
  rw [lidx3_at, ridx3_at, cat_left, Read.val_main_v2_apply, idx2_at]

/-- A term of the right half: (L·x) (r, d) · W (o, 64 + d). -/
theorem term_right (L : FVec Ideal S4096x4096 .f32) (x : FVec Ideal S4096x64 .f32) (W : FVec Ideal S64x128 .f32)
    (r : Fin 4096) (o d : Fin 64) :
    Read.val_main_v1 (F := Ideal) L x (Read.lidx_main_v3 (ix2 r o) (Cert.Spec.wr d))
        * Read.val_main_v2 (F := Ideal) W (Read.ridx_main_v3 (ix2 r o) (Cert.Spec.wr d))
      = (∑ k : Fin 4096, L (ix2 r k) * x (ix2 k d)) * W (ix2 o (Cert.Spec.wr d)) := by
  rw [lidx3_at, ridx3_at, cat_right, Read.val_main_v2_apply, idx2_at]

/-! ## The bias, spread along the rows -/

/-- The bias spread to [1, 64] and then to [4096, 64] reads b (o) at (r, o). -/
theorem bias_at (b : FVec Ideal S64 .f32) (r : Fin 4096) (o : Fin 64) :
    Read.val_main_v5 (F := Ideal) b (ix2 r o) = b (ix1 o) := by
  rw [Read.val_main_v5_apply, Read.val_main_v4_apply]
  exact congrArg b (funext fun a => Fin.ext (by match a with | ⟨0, _⟩ => rfl))

/-! ## The stage is the reference form -/

/-- The reference form at row r and output feature o, its coordinates written out. -/
theorem refG_at (L : FVec Ideal S4096x4096 .f32) (x : FVec Ideal S4096x64 .f32) (W : FVec Ideal S64x128 .f32)
    (b : FVec Ideal S64 .f32) (r : Fin 4096) (o : Fin 64) :
    Cert.Spec.refG L x W b (ix2 r o)
      = ((∑ d : Fin 64, x (ix2 r d) * W (ix2 o (Cert.Spec.wl d)))
          + (∑ d : Fin 64, (∑ k : Fin 4096, L (ix2 r k) * x (ix2 k d)) * W (ix2 o (Cert.Spec.wr d))))
        + b (ix1 o) := rfl

/-- The reference's last stage is the reference form of the layer: [x | L·x] · Wᵀ + b, the sum over the 128 joined
    columns split into the half that meets x and the half that meets L·x. -/
theorem stage_eq (L : FVec Ideal S4096x4096 .f32) (x : FVec Ideal S4096x64 .f32) (W : FVec Ideal S64x128 .f32) (b : FVec Ideal S64 .f32) :
    Cert.ReferenceIdeal.Read.val_main_v6 (F := Ideal) L x W b = Cert.Spec.refG L x W b := by
  funext i
  obtain ⟨r, o, rfl⟩ : ∃ (r : Fin 4096) (o : Fin 64), i = ix2 r o := ⟨i 0, i 1, eq_ix2 i⟩
  rw [refG_at, Read.val_main_v6_apply, Read.val_main_v3_apply, Cert.Spec.sum_wide, bias_at, Ideal.addf_def]
  exact congrArg₂ (· + ·)
    (congrArg₂ (· + ·)
      (Finset.sum_congr rfl fun d _ => term_left L x W r o d)
      (Finset.sum_congr rfl fun d _ => term_right L x W r o d))
    rfl

end Cert.RefStage

end
-- ==== Proof.KernelPieces.lean ====
/-
  What one grid point leaves in the three buffers the body carries between points and in the output block, read back as
  VALUES of the point's input blocks and of what the point before left.

  The body keeps three buffers across the grid: the projected features z = W₂·xᵀ (64 × 4096), the projected features with
  the bias ρ = W₁·xᵀ + b (64 × 4096), and a partial product (64 × 1024). The grid is 4 row blocks × 2 column halves; point
  (i, j) multiplies columns j·2048 … of z against the (i, j) block of L.
    the first point (0, 0)  stores z and ρ, then the partial product of the window of the z it has just stored;
    a point (i, 0), i > 0   stores the partial product of the window of the z the point before left;
    a point (i, 1)          stores into the output block the transpose of (partial + its own product) + the window of ρ.
  Each store fills its buffer whole, so what the buffer reads afterwards is that store's payload; a load through the whole
  buffer reads its contents, and a load of a window of columns reads the contents at the window's indices.
-/
import proofs.«136983_g17815524344015_cont_8to1_1399_24_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- Columns j·2048 … j·2048 + 2047 of a 64 × 4096 array of projected features, at point i = (·, j): what the body loads of z. -/
abbrev zwin (i : grid0.Coords) (Z : Vec F S64x4096 .bf16) : Vec F S64x2048 .bf16 :=
  View.ld Z (Rect.unit (k0_off1 i) S64x2048.size (k0_off1_inb i))

/-- Columns i·1024 … i·1024 + 1023 of ρ, at a point (i, 1): what the body loads of ρ before it stores the output block. -/
abbrev rwin (i : grid0.Coords) (h : cond0_2 i) (R : Vec F S64x4096 .f32) : Vec F S64x1024 .f32 :=
  View.ld R (Rect.unit (k0_off2 i) S64x1024.size (k0_off2_inb i h))

/-- The first point leaves z = the product of the right half of the weights with xᵀ in the first carried buffer. -/
theorem first_z (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1024x64 .f32) (harg7 : arg7.IsWhole) (arg8 : Memref sig .tc .vmem S64x4096 .bf16) (harg8 : arg8.IsWhole) (arg9 : Memref sig .tc .vmem S64x4096 .f32) (harg9 : arg9.IsWhole) (arg10 : Memref sig .tc .vmem S64x1024 .f32) (harg10 : arg10.IsWhole) (hc0 : cond0_0 i) (hc1 : cond0_1 i) (hc2 : ¬cond0_2 i)
    (x0 : Vec F S1024x2048 .f32) (x1 : Vec F S64x4096 .f32) (x2 : Vec F S64x64 .f32) (x3 : Vec F S64x64 .f32) (x4 : Vec F S64x1 .f32) :
    sout0_A_0 c i arg2 harg2 arg3 harg3 arg4 harg4 arg5 harg5 arg6 harg6 arg7 harg7 arg8 harg8 arg9 harg9 arg10 harg10 hc0 hc1 hc2 x0 x1 x2 x3 x4 = k0_pay1 x3 x1 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  rw [View.canon_unit_zero hz]
  simp only [View.readAt_eq_ld, harg5.read_unread, harg3.read_unread, View.ld_unit_zero (S := S64x64) hz,
    View.ld_unit_zero (S := S64x4096) hz]

/-- The first point leaves ρ = the product of the left half of the weights with xᵀ, plus the bias column, in the second. -/
theorem first_rho (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1024x64 .f32) (harg7 : arg7.IsWhole) (arg8 : Memref sig .tc .vmem S64x4096 .bf16) (harg8 : arg8.IsWhole) (arg9 : Memref sig .tc .vmem S64x4096 .f32) (harg9 : arg9.IsWhole) (arg10 : Memref sig .tc .vmem S64x1024 .f32) (harg10 : arg10.IsWhole) (hc0 : cond0_0 i) (hc1 : cond0_1 i) (hc2 : ¬cond0_2 i)
    (x0 : Vec F S1024x2048 .f32) (x1 : Vec F S64x4096 .f32) (x2 : Vec F S64x64 .f32) (x3 : Vec F S64x64 .f32) (x4 : Vec F S64x1 .f32) :
    sout0_A_1 c i arg2 harg2 arg3 harg3 arg4 harg4 arg5 harg5 arg6 harg6 arg7 harg7 arg8 harg8 arg9 harg9 arg10 harg10 hc0 hc1 hc2 x0 x1 x2 x3 x4 = k0_pay2 x2 x1 x4 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  rw [View.canon_unit_zero hz]
  simp only [View.readAt_eq_ld, harg4.read_unread, harg3.read_unread, harg6.read_unread, View.ld_unit_zero (S := S64x64) hz,
    View.ld_unit_zero (S := S64x4096) hz, View.ld_unit_zero (S := S64x1) hz]

/-- The first point leaves in the third buffer the product of the window of the z it has just stored with its block of L. -/
theorem first_partial (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1024x64 .f32) (harg7 : arg7.IsWhole) (arg8 : Memref sig .tc .vmem S64x4096 .bf16) (harg8 : arg8.IsWhole) (arg9 : Memref sig .tc .vmem S64x4096 .f32) (harg9 : arg9.IsWhole) (arg10 : Memref sig .tc .vmem S64x1024 .f32) (harg10 : arg10.IsWhole) (hc0 : cond0_0 i) (hc1 : cond0_1 i) (hc2 : ¬cond0_2 i)
    (x0 : Vec F S1024x2048 .f32) (x1 : Vec F S64x4096 .f32) (x2 : Vec F S64x64 .f32) (x3 : Vec F S64x64 .f32) (x4 : Vec F S64x1 .f32) :
    sout0_A_2 c i arg2 harg2 arg3 harg3 arg4 harg4 arg5 harg5 arg6 harg6 arg7 harg7 arg8 harg8 arg9 harg9 arg10 harg10 hc0 hc1 hc2 x0 x1 x2 x3 x4 = k0_pay4 (zwin i (k0_pay1 x3 x1)) x0 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 hc2 x0 x1 x2 x3 x4)]
  unfold kernelRun0_A
  dsimp only
  sl_unfold_words
  rw [View.canon_unit_zero hz]
  simp only [View.readAt_eq_ld, View.read_writes_junk_eq_canon, View.canon_unit_zero (S := S64x4096) hz, harg5.read_unread, harg3.read_unread,
    harg2.read_unread, View.ld_unit_zero (S := S64x64) hz, View.ld_unit_zero (S := S64x4096) hz,
    View.ld_unit_zero (S := S1024x2048) hz]
  dsimp only [zwin, k0_off1]

/-- A later point of the first column half leaves the product of the window of the carried z with its block of L. -/
theorem later_partial (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1024x64 .f32) (harg7 : arg7.IsWhole) (arg8 : Memref sig .tc .vmem S64x4096 .bf16) (harg8 : arg8.IsWhole) (arg9 : Memref sig .tc .vmem S64x4096 .f32) (harg9 : arg9.IsWhole) (arg10 : Memref sig .tc .vmem S64x1024 .f32) (harg10 : arg10.IsWhole) (hc0 : ¬cond0_0 i) (hc1 : cond0_1 i) (hc2 : ¬cond0_2 i)
    (x0 : Vec F S1024x2048 .f32) (x1 : Vec F S64x4096 .f32) (x2 : Vec F S64x64 .f32) (x3 : Vec F S64x64 .f32) (x4 : Vec F S64x1 .f32) (xs0 : Vec F S64x4096 .bf16) (xs1 : Vec F S64x4096 .f32) :
    sout0_C_2 c i arg2 harg2 arg3 harg3 arg4 harg4 arg5 harg5 arg6 harg6 arg7 harg7 arg8 harg8 arg9 harg9 arg10 harg10 hc0 hc1 hc2 x0 x1 x2 x3 x4 xs0 xs1 = k0_pay4 (zwin i xs0) x0 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 hc2 x0 x1 x2 x3 x4 xs0 xs1)]
  unfold kernelRun0_C
  dsimp only
  sl_unfold_words
  rw [View.canon_unit_zero hz]
  simp only [View.readAt_eq_ld, harg8.read_unread, harg2.read_unread, View.ld_unit_zero (S := S1024x2048) hz]
  dsimp only [zwin, k0_off1]

/-- A point of the second column half leaves in the output block the transpose of
    (carried partial + the product of its own window of z with its block of L) + its window of ρ. -/
theorem out_block (c : Dev nD) (i : grid0.Coords) (arg2 : Memref sig .tc .vmem S1024x2048 .f32) (harg2 : arg2.IsWhole) (arg3 : Memref sig .tc .vmem S64x4096 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x1 .f32) (harg6 : arg6.IsWhole) (arg7 : Memref sig .tc .vmem S1024x64 .f32) (harg7 : arg7.IsWhole) (arg8 : Memref sig .tc .vmem S64x4096 .bf16) (harg8 : arg8.IsWhole) (arg9 : Memref sig .tc .vmem S64x4096 .f32) (harg9 : arg9.IsWhole) (arg10 : Memref sig .tc .vmem S64x1024 .f32) (harg10 : arg10.IsWhole) (hc0 : ¬cond0_0 i) (hc1 : ¬cond0_1 i) (hc2 : cond0_2 i)
    (x0 : Vec F S1024x2048 .f32) (x1 : Vec F S64x4096 .f32) (x2 : Vec F S64x64 .f32) (x3 : Vec F S64x64 .f32) (x4 : Vec F S64x1 .f32) (xs0 : Vec F S64x4096 .bf16) (xs1 : Vec F S64x4096 .f32) (xs2 : Vec F S64x1024 .f32) :
    out0_B_5 c i arg2 harg2 arg3 harg3 arg4 harg4 arg5 harg5 arg6 harg6 arg7 harg7 arg8 harg8 arg9 harg9 arg10 harg10 hc0 hc1 hc2 x0 x1 x2 x3 x4 xs0 xs1 xs2 = k0_pay5 (zwin i xs0) x0 xs2 (rwin i hc2 xs1) := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 hc2 x0 x1 x2 x3 x4 xs0 xs1 xs2)]
  unfold kernelRun0_B
  dsimp only
  sl_unfold_words
  rw [View.canon_unit_zero hz]
  simp only [View.readAt_eq_ld, harg8.read_unread, harg2.read_unread, harg9.read_unread, harg10.read_unread,
    View.ld_unit_zero (S := S1024x2048) hz, View.ld_unit_zero (S := S64x1024) hz]
  dsimp only [zwin, rwin, k0_off1, k0_off2]

end Cert.KernelIdeal.Pieces

end
-- ==== Proof.KernelFold.lean ====
/-
  The three carried buffers after every grid point, and the output block a point of the second column half stores, as closed
  terms of the input blocks — by induction on the point, never by enumerating the grid.

  z and ρ are stored once, at the first point, and no later point stores into them: after EVERY point they hold what the
  first point left. The partial product is stored at each point (i, 0); the point after it, (i, 1), reads it. So the output
  block that point (i, 1) stores is the transpose of

      (window j = 0 of z against block (i, 0) of L  +  window j = 1 of z against block (i, 1) of L)  +  window i of ρ.
-/
import proofs.«136983_g17815524344015_cont_8to1_1399_24_alg».proof.Proof.KernelPieces

noncomputable section

namespace Cert.KernelIdeal.Fold

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The first grid point. -/
def first : Fin cfg0.N := ⟨0, by rw [show cfg0.N = 8 from N_0]; decide⟩

/-- The block of L that point t = (i, j) reads: rows i·1024 …, columns j·2048 …. -/
abbrev Lblk (c : Dev nD) (t : Fin cfg0.N) : Vec F S1024x2048 .f32 := iblk m c 0 t
/-- xᵀ, the two halves of the weights and the bias column, whole, as the first point reads them. -/
abbrev xT (c : Dev nD) : Vec F S64x4096 .f32 := iblk m c 1 first
abbrev W1 (c : Dev nD) : Vec F S64x64 .f32 := iblk m c 2 first
abbrev W2 (c : Dev nD) : Vec F S64x64 .f32 := iblk m c 3 first
abbrev bcol (c : Dev nD) : Vec F S64x1 .f32 := iblk m c 4 first

/-- z = W₂ · xᵀ, as the first point stores it. -/
def Z (c : Dev nD) : Vec F S64x4096 .bf16 := k0_pay1 (W2 m c) (xT m c)
/-- ρ = W₁ · xᵀ + b, as the first point stores it. -/
def Rho (c : Dev nD) : Vec F S64x4096 .f32 := k0_pay2 (W1 m c) (xT m c) (bcol m c)
/-- The product of point t's window of z with point t's block of L. -/
def partialAt (c : Dev nD) (t : Fin cfg0.N) : Vec F S64x1024 .f32 := k0_pay4 (zwin (grid0.coords t) (Z m c)) (Lblk m c t)

/-- After every point the first two carried buffers hold z and ρ, and after a point of the first column half the third holds
    that point's product. -/
theorem carried (c : Dev nD) : ∀ (n : ℕ) (h : n < cfg0.N),
    (outsAt0 m c n h).2.1 = Z m c ∧ (outsAt0 m c n h).2.2.1 = Rho m c
      ∧ (n % 2 = 0 → (outsAt0 m c n h).2.2.2 = partialAt m c ⟨n, h⟩)
  | 0, h => by
    rw [outsAt0_A m c ⟨0, h⟩ rfl rfl (show ¬(0 % 2 = 1) by decide)]
    dsimp only
    exact ⟨first_z .., first_rho .., fun _ => first_partial ..⟩
  | n + 1, h => by
    have hN : cfg0.N = 8 := N_0
    obtain ⟨ihz, ihr, ihp⟩ := carried c n (Nat.lt_of_succ_lt h)
    have h0 : ¬(⟨n + 1, h⟩ : Fin cfg0.N).val % 8 = 0 := by dsimp only; omega
    by_cases h1 : (⟨n + 1, h⟩ : Fin cfg0.N).val % 2 = 0
    · have h2 : ¬(⟨n + 1, h⟩ : Fin cfg0.N).val % 2 = 1 := by dsimp only at h1 ⊢; omega
      rw [outsAt0_C m c ⟨n + 1, h⟩ h0 h1 h2]
      dsimp only
      unfold sout0_C_0 sout0_C_1
      refine ⟨ihz, ihr, fun _ => ?_⟩
      rw [later_partial]
      show k0_pay4 (zwin _ (outsAt0 m c n _).2.1) _ = _
      rw [ihz]
      rfl
    · have h2 : (⟨n + 1, h⟩ : Fin cfg0.N).val % 2 = 1 := by dsimp only at h1 ⊢; omega
      rw [outsAt0_B m c ⟨n + 1, h⟩ h0 h1 h2]
      dsimp only
      unfold sout0_B_0 sout0_B_1
      exact ⟨ihz, ihr, fun hh => absurd hh h1⟩

/-- The output block a point of the second column half stores. -/
theorem out_second (c : Dev nD) (n : ℕ) (h : n + 1 < cfg0.N) (h2 : (n + 1) % 2 = 1) :
    (outsAt0 m c (n + 1) h).1
      = k0_pay5 (zwin (grid0.coords ⟨n + 1, h⟩) (Z m c)) (Lblk m c ⟨n + 1, h⟩) (partialAt m c ⟨n, Nat.lt_of_succ_lt h⟩)
          (rwin (grid0.coords ⟨n + 1, h⟩) ((hcond0_2 ⟨n + 1, h⟩).mpr h2) (Rho m c)) := by
  have hN : cfg0.N = 8 := N_0
  obtain ⟨ihz, ihr, ihp⟩ := carried m c n (Nat.lt_of_succ_lt h)
  have h0 : ¬(⟨n + 1, h⟩ : Fin cfg0.N).val % 8 = 0 := by dsimp only; omega
  have h1 : ¬(⟨n + 1, h⟩ : Fin cfg0.N).val % 2 = 0 := by dsimp only; omega
  rw [outsAt0_B m c ⟨n + 1, h⟩ h0 h1 h2]
  dsimp only
  rw [out_block]
  show k0_pay5 (zwin _ (outsAt0 m c n _).2.1) _ (outsAt0 m c n _).2.2.2 (rwin _ _ (outsAt0 m c n _).2.2.1) = _
  rw [ihz, ihr, ihp (by omega)]

end Cert.KernelIdeal.Fold

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.LibTransposedRhsDot.lean ====
/-
  A two-dimensional contraction whose right operand is contracted on its LAST axis, read at one element over the
  extended reals.

  For the dimension numbers of an [M, K] by [N, K] product (the left operand's axis 1 contracted against the right
  operand's axis 1, no batch axis), entry (p, q) of the product is the sum over k of lhs (p, k) · rhs (q, k): the
  product of the left matrix with the TRANSPOSE of the right one. This holds of a kernel's matrix product into a zero
  accumulator and of the host's dot_general alike, whatever the precision attribute: at the extended reals both are the
  textbook contraction. Generic in the three extents.
-/
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Axis 1 of the left operand is the contracted one: it reads the contraction position. -/
theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

/-- Axis 0 of the right operand is free: it reads the output's COLUMN coordinate. -/
theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- Axis 1 of the right operand is the contracted one. -/
theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

/-- The contraction's sum over its one-axis index shape, re-indexed by that axis' coordinate: the sum over
    `k : Fin K` of lhs (p, k) · rhs (q, k). -/
theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.PayloadRead.lean ====
/-
  The kernel body's five pure values, read at one entry over the extended reals.

  At the extended reals a change of float format is the identity and a matrix product into the zero accumulator is the
  plain sum of products, so each value the body stores is a short closed expression of the blocks it loaded:

    * the projected features through one half of the weights, a [64, 64] by [64, 4096] product:
        entry (o, n) is  Σ_d w (o, d) · xt (d, n);
    * the same product through the other half plus the bias column [64, 1] spread along the 4096 columns:
        entry (o, n) is  Σ_d w (o, d) · xt (d, n) + bc (o, 0);
    * a [64, 2048] block of projected features against a [1024, 2048] block of the operator, both contracted on their
      last axis:  entry (o, p) is  Σ_k zw (o, k) · lb (p, k);
    * the same value stored as the first partial sum;
    * the finished tile, transposed to [1024, 64]:  entry (p, o) is  (acc (o, p) + Σ_k zw (o, k) · lb (p, k)) + rw (o, p).

  A reshape of a shape to itself is the identity; a broadcast of a [64, 1] column reads the column at row o; a
  transposition with the permutation [1, 0] reads the source at the swapped coordinates.
-/
import proofs.«136983_g17815524344015_cont_8to1_1399_24_alg».proof.Proof.Gen.KernelIdeal.Skeleton
import proofs.«136983_g17815524344015_cont_8to1_1399_24_alg».proof.Proof.LibPlainDot
import proofs.«136983_g17815524344015_cont_8to1_1399_24_alg».proof.Proof.LibTransposedRhsDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayloadRead

open Cert.KernelIdeal Cert.KernelIdeal.Gen Idealize.ShloMosaic Idealize.ShloMosaic.ValueIdx

/-! ## The two contractions' dimension numbers -/

/-- The [64, 64] by [64, 4096] product contracts the left operand's axis 1 against the right operand's axis 0. -/
theorem dot_plain_eq : dot_S64x64_S64x4096_S64x4096_1_0_0_1_n_n = DotDims.plain 64 64 4096 := rfl

/-- The [64, 2048] by [1024, 2048] product contracts both operands on their last axis. -/
theorem dot_transposedRhs_eq : dot_S64x2048_S1024x2048_S64x1024_1_1_0_0_n_n = DotDims.transposedRhs 64 2048 1024 := rfl

/-! ## The projected features -/

/-- The product of a [64, 64] half of the weights with the [64, 4096] transposed features, narrowed to the shorter
    format (the identity on extended reals): entry (o, n) is the sum over d of w2 (o, d) · xt (d, n). -/
theorem pay1_apply (w2 : Vec Ideal S64x64 .f32) (xt : Vec Ideal S64x4096 .f32) (o : Fin 64) (n : Fin 4096) :
    (k0_pay1 (F := Ideal) w2 xt (ix2 o n) : EReal) = ∑ d : Fin 64, (w2 (ix2 o d) : EReal) * (xt (ix2 d n) : EReal) := by
  unfold k0_pay1
  simp only [shapeCast_self]
  exact Cert.Lib.PlainDot.matmul_zero_apply 64 64 4096 (φ₁ := .f32) (φ₂ := .f32) none w2 xt o n

/-- The product through the other half of the weights plus the bias column, the column [64, 1] spread along the 4096
    columns: entry (o, n) is the sum over d of w1 (o, d) · xt (d, n), plus bc (o, 0). -/
theorem pay2_apply (w1 : Vec Ideal S64x64 .f32) (xt : Vec Ideal S64x4096 .f32) (bc : Vec Ideal S64x1 .f32) (o : Fin 64) (n : Fin 4096) :
    (k0_pay2 (F := Ideal) w1 xt bc (ix2 o n) : EReal) = (∑ d : Fin 64, (w1 (ix2 o d) : EReal) * (xt (ix2 d n) : EReal)) + (bc (ix2 o 0) : EReal) := by
  unfold k0_pay2
  simp only [shapeCast_self]
  rw [addf_apply]
  refine congrArg₂ (· + ·) (Cert.Lib.PlainDot.matmul_zero_apply 64 64 4096 (φ₁ := .f32) (φ₂ := .f32) none w1 xt o n) ?_
  -- the spread column at (o, n) is the column at (o, 0): axis 0 has extent 64 and keeps its coordinate, axis 1 has extent 1
  exact broadcastTo_apply bc broadcasts_S64x1_S64x4096 (ix2 o n) (ix2 o 0) (fun a => by
    match a with
    | ⟨0, _⟩ => show o.val = if (64 : Nat) = 1 then 0 else o.val; rw [if_neg (by decide)]
    | ⟨1, _⟩ => show (0 : Nat) = if (1 : Nat) = 1 then 0 else n.val; rw [if_pos rfl])

/-! ## One block of the operator against one block of projected features -/

/-- A [64, 2048] block of projected features against a [1024, 2048] block of the operator (narrowed first: the identity
    on extended reals), both contracted on their last axis: entry (o, p) is the sum over k of zw (o, k) · lb (p, k). -/
theorem pay3_apply (zw : Vec Ideal S64x2048 .bf16) (lb : Vec Ideal S1024x2048 .f32) (o : Fin 64) (p : Fin 1024) :
    (k0_pay3 (F := Ideal) zw lb (ix2 o p) : EReal) = ∑ k : Fin 2048, (zw (ix2 o k) : EReal) * (lb (ix2 p k) : EReal) := by
  unfold k0_pay3
  exact Cert.Lib.TransposedRhsDot.matmul_zero_apply 64 2048 1024 (φ₁ := .bf16) (φ₂ := .bf16) none zw (truncf .bf16 lb bitsLt_bf16_f32) o p

/-- The same product as it is stored for the first half of the columns: a reshape to its own shape changes nothing. -/
theorem pay4_apply (zw : Vec Ideal S64x2048 .bf16) (lb : Vec Ideal S1024x2048 .f32) (o : Fin 64) (p : Fin 1024) :
    (k0_pay4 (F := Ideal) zw lb (ix2 o p) : EReal) = ∑ k : Fin 2048, (zw (ix2 o k) : EReal) * (lb (ix2 p k) : EReal) := by
  unfold k0_pay4
  simp only [shapeCast_self]
  exact pay3_apply zw lb o p

/-- The finished tile: the stored partial sum plus the second half's product plus the projected bias term, transposed
    to [1024, 64]; entry (p, o) reads the three summands at (o, p). -/
theorem pay5_apply (zw : Vec Ideal S64x2048 .bf16) (lb : Vec Ideal S1024x2048 .f32) (acc rw : Vec Ideal S64x1024 .f32) (p : Fin 1024) (o : Fin 64) :
    (k0_pay5 (F := Ideal) zw lb acc rw (ix2 p o) : EReal)
      = ((acc (ix2 o p) : EReal) + ∑ k : Fin 2048, (zw (ix2 o k) : EReal) * (lb (ix2 p k) : EReal)) + (rw (ix2 o p) : EReal) := by
  unfold k0_pay5
  dsimp only
  -- the transposition with the permutation [1, 0] at (p, o) reads its operand at (o, p)
  refine (transpose_apply [1, 0] _ transposes_S64x1024_p1_0_S1024x64 (ix2 p o) (ix2 o p) (fun b => by
    match b with
    | ⟨0, _⟩ => rfl
    | ⟨1, _⟩ => rfl)).trans ?_
  rw [addf_apply, addf_apply, pay3_apply]

end Cert.KernelIdeal.PayloadRead

end
-- ==== Proof.EntryBlocks.lean ====
import proofs.«136983_g17815524344015_cont_8to1_1399_24_alg».proof.Proof.Gen.KernelIdeal.Frame
import proofs.«136983_g17815524344015_cont_8to1_1399_24_alg».proof.Proof.Spec
import Idealize.ShloMosaic.Lib.Pipeline.Value
import Idealize.ShloMosaic.Lib.ValueIdx
import Idealize.ShloMosaic.Lib.ValueLayout
import Idealize.ShloMosaic.Lib.StableHlo.Run

/-!
# The input blocks, read back to the argument arrays

The kernel region reads five arrays through five windows. The operator L [4096, 4096] is an argument array, cut
into blocks [1024, 2048]: at grid point t = 2·i + j (i < 4, j < 2) the block is rows i·1024 … i·1024 + 1023 and
columns j·2048 … j·2048 + 2047. The other four arrays are written by host operations before the region, and
each is read whole (one block, at block index (0, 0), at every point):

  * xᵀ [64, 4096], the transpose of the features x [4096, 64]:      xᵀ (d, n) = x (n, d);
  * W₁ [64, 64], the slice of the weights W [64, 128] at columns 0 … 63:    W₁ (o, d) = W (o, d);
  * W₂ [64, 64], the slice of W at columns 64 … 127:                        W₂ (o, d) = W (o, 64 + d);
  * the bias b [64] as a column [64, 1]:                                     (o, 0) ↦ b (o).

A block's element at position y sits in its array at coordinate (block index) × (block extent) + y on each
axis. Everything here is re-indexing: no arithmetic on the elements, so it holds for any float values `F`.
-/

noncomputable section

namespace Cert.KernelIdeal.EntryBlocks
open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ) (c : Dev nD)

/-! ## The block indices over the grid -/

/-- The operator's block at point `t` of the 4 × 2 grid is block (t / 2, t % 2): checked at each of the 8 points. -/
theorem index_L : ∀ t : Fin cfg0.N, win0_0.index t (0 : Fin 2) = t.val / 2 ∧ win0_0.index t (1 : Fin 2) = t.val % 2 :=
  (by decide +kernel : ∀ t : Fin grid0.N, win0_0.index t (0 : Fin 2) = t.val / 2 ∧ win0_0.index t (1 : Fin 2) = t.val % 2)
/-- The transposed features are one block, (0, 0), at every point: the index map is constant. -/
theorem index_xT : ∀ t : Fin cfg0.N, win0_1.index t (0 : Fin 2) = 0 ∧ win0_1.index t (1 : Fin 2) = 0 := fun _ => ⟨rfl, rfl⟩
/-- The left half of the weights is one block, (0, 0), at every point. -/
theorem index_W1 : ∀ t : Fin cfg0.N, win0_2.index t (0 : Fin 2) = 0 ∧ win0_2.index t (1 : Fin 2) = 0 := fun _ => ⟨rfl, rfl⟩
/-- The right half of the weights is one block, (0, 0), at every point. -/
theorem index_W2 : ∀ t : Fin cfg0.N, win0_3.index t (0 : Fin 2) = 0 ∧ win0_3.index t (1 : Fin 2) = 0 := fun _ => ⟨rfl, rfl⟩
/-- The bias column is one block, (0, 0), at every point. -/
theorem index_b : ∀ t : Fin cfg0.N, win0_4.index t (0 : Fin 2) = 0 ∧ win0_4.index t (1 : Fin 2) = 0 := fun _ => ⟨rfl, rfl⟩

/-! ## The operator's block -/

/-- Row `p` of row block `t / 2` is a row of the operator: t < 8, so (t / 2)·1024 + p ≤ 3·1024 + 1023 < 4096. -/
theorem row_lt (t : Fin cfg0.N) (p : Fin 1024) : (t.val / 2) * 1024 + p.val < 4096 := by
  have := t.isLt; have h8 : cfg0.N = 8 := N_0; omega

/-- Row `p` of the operator's row block at point `t`: row (t / 2)·1024 + p of the operator. -/
abbrev row (t : Fin cfg0.N) (p : Fin 1024) : Fin 4096 := ⟨(t.val / 2) * 1024 + p.val, row_lt t p⟩

/-- The operator's block at point `t`, at (p, k): the operator at row (t / 2)·1024 + p and column (t % 2)·2048 + k.
    No host operation writes the operator, so the region finds it as launched. -/
theorem iblk0_apply (t : Fin cfg0.N) (p : Fin 1024) (k : Fin 2048) :
    (iblk m c 0 t : Vec F S1024x2048 .f32) (ix2 p k)
      = m ((c : Thread nD τ).loc main_arg0)
          (ix2 ⟨(t.val / 2) * 1024 + p.val, row_lt t p⟩ (Cert.Spec.col ⟨t.val % 2, Nat.mod_lt _ (by decide)⟩ k)) := by
  unfold iblk
  rw [View.read_apply]
  show V m c main_arg0 _ = m (c.tc.loc main_arg0) _
  rw [V_main_arg0]
  congr 1
  funext a
  apply Fin.ext
  -- per axis: block index × block extent + position in the block
  match a with
  | ⟨0, _⟩ => show win0_0.index t 0 * 1024 + 1 * p.val = (t.val / 2) * 1024 + p.val; rw [(index_L t).1]; omega
  | ⟨1, _⟩ => show win0_0.index t 1 * 2048 + 1 * k.val = (t.val % 2) * 2048 + k.val; rw [(index_L t).2]; omega

/-! ## The four arrays the host operations write, as the region finds them -/

/-- W₁ at region entry: the slice of the weights at offsets (0, 0). -/
theorem entry_W1 : (V m c main_call0_v0 : S64x64.Idx → Elt F .f32)
    = extractStridedSlice S64x64 ![0, 0] (m ((c : Thread nD τ).loc main_arg2)) slices_S64x128_S64x64_0_0 := by
  dsimp only [Gen.V, Gen.hostOps0]; after_results; rfl
/-- W₂ at region entry: the slice of the weights at offsets (0, 64). -/
theorem entry_W2 : (V m c main_call0_v1 : S64x64.Idx → Elt F .f32)
    = extractStridedSlice S64x64 ![0, 64] (m ((c : Thread nD τ).loc main_arg2)) slices_S64x128_S64x64_0_64 := by
  dsimp only [Gen.V, Gen.hostOps0]; after_results; rfl
/-- xᵀ at region entry: the features with their two axes exchanged. -/
theorem entry_xT : (V m c main_call0_v2 : S64x4096.Idx → Elt F .f32)
    = transpose S64x4096 [1, 0] (m ((c : Thread nD τ).loc main_arg1)) transposes_S4096x64_S64x4096_1_0 := by
  dsimp only [Gen.V, Gen.hostOps0]; after_results; rfl
/-- The bias column at region entry: the bias under the shape [64, 1], the same elements in row-major order. -/
theorem entry_b : (V m c main_call0_v3 : S64x1.Idx → Elt F .f32)
    = shapeCast S64x1 (m ((c : Thread nD τ).loc main_arg3)) shapeCasts_S64_S64x1 := by
  dsimp only [Gen.V, Gen.hostOps0]; after_results; rfl

/-! ## The four whole-array blocks -/

/-- xᵀ's block (the whole array) at (d, n): the features at (n, d). Result axis 0 is source axis 1 and
    result axis 1 is source axis 0. -/
theorem iblk1_apply (t : Fin cfg0.N) (d : Fin 64) (n : Fin 4096) :
    (iblk m c 1 t : Vec F S64x4096 .f32) (ix2 d n) = m ((c : Thread nD τ).loc main_arg1) (ix2 n d) := by
  unfold iblk
  rw [View.read_apply]
  show V m c main_call0_v2 _ = m (c.tc.loc main_arg1) _
  rw [entry_xT]
  exact transpose_apply [1, 0] _ transposes_S4096x64_S64x4096_1_0 _ (ix2 n d) (fun b => match b with
    | ⟨0, _⟩ => by show d.val = win0_1.index t 0 * 64 + 1 * d.val; rw [(index_xT t).1]; omega
    | ⟨1, _⟩ => by show n.val = win0_1.index t 1 * 4096 + 1 * n.val; rw [(index_xT t).2]; omega)

/-- W₁'s block (the whole array) at (o, d): the weights at (0 + o, 0 + d), column `d` of the left half. -/
theorem iblk2_apply (t : Fin cfg0.N) (o d : Fin 64) :
    (iblk m c 2 t : Vec F S64x64 .f32) (ix2 o d) = m ((c : Thread nD τ).loc main_arg2) (ix2 o (Cert.Spec.wl d)) := by
  unfold iblk
  rw [View.read_apply]
  show V m c main_call0_v0 _ = m (c.tc.loc main_arg2) _
  rw [entry_W1]
  exact extractStridedSlice_apply ![0, 0] _ slices_S64x128_S64x64_0_0 _ (ix2 o (Cert.Spec.wl d)) (fun a => match a with
    | ⟨0, _⟩ => by show o.val = 0 + (win0_2.index t 0 * 64 + 1 * o.val); rw [(index_W1 t).1]; omega
    | ⟨1, _⟩ => by show d.val = 0 + (win0_2.index t 1 * 64 + 1 * d.val); rw [(index_W1 t).2]; omega)

/-- W₂'s block (the whole array) at (o, d): the weights at (0 + o, 64 + d), column `d` of the right half. -/
theorem iblk3_apply (t : Fin cfg0.N) (o d : Fin 64) :
    (iblk m c 3 t : Vec F S64x64 .f32) (ix2 o d) = m ((c : Thread nD τ).loc main_arg2) (ix2 o (Cert.Spec.wr d)) := by
  unfold iblk
  rw [View.read_apply]
  show V m c main_call0_v1 _ = m (c.tc.loc main_arg2) _
  rw [entry_W2]
  exact extractStridedSlice_apply ![0, 64] _ slices_S64x128_S64x64_0_64 _ (ix2 o (Cert.Spec.wr d)) (fun a => match a with
    | ⟨0, _⟩ => by show o.val = 0 + (win0_3.index t 0 * 64 + 1 * o.val); rw [(index_W2 t).1]; omega
    | ⟨1, _⟩ => by show 64 + d.val = 64 + (win0_3.index t 1 * 64 + 1 * d.val); rw [(index_W2 t).2]; omega)

/-- The bias column's block (the whole array) at (o, 0): the bias at o. Row-major, (o, 0) of [64, 1] is position
    o · 1 + 0 = o, the position of o in [64]. -/
theorem iblk4_apply (t : Fin cfg0.N) (o : Fin 64) :
    (iblk m c 4 t : Vec F S64x1 .f32) (ix2 o 0) = m ((c : Thread nD τ).loc main_arg3) (ix1 o) := by
  unfold iblk
  rw [View.read_apply]
  show V m c main_call0_v3 _ = m (c.tc.loc main_arg3) _
  rw [entry_b]
  refine shapeCast_apply _ shapeCasts_S64_S64x1 _ (ix1 o) ?_
  rw [Shape.rowMajor_val_one, Shape.rowMajor_val_two]
  show o.val = (win0_4.index t 0 * 64 + 1 * o.val) * 1 + (win0_4.index t 1 * 1 + 1 * 0)
  rw [(index_b t).1, (index_b t).2]; omega

end Cert.KernelIdeal.EntryBlocks

end
-- ==== Proof.KernelBlocks.lean ====
/-
  From the blocks to the result array: the array the idealized kernel ends holding is the projected form of the layer,
  Cert.Spec.kerG, of the four argument arrays.

  The grid is 4 row blocks × 2 column halves; point t = 2·i + j works on rows i·1024 … of L and on columns j·2048 … of the
  projected features z (o, n) = Σ_d W₂ (o, d) · x (n, d). Only the points (i, 1) write a block of the result back: block i,
  rows i·1024 … i·1024 + 1023, all 64 output features. Entry (p, o) of that block is

      (Σ_{k < 2048} z (o, k) · L (i·1024 + p, k)  +  Σ_{k < 2048} z (o, 2048 + k) · L (i·1024 + p, 2048 + k))  +  ρ (o, i·1024 + p),

  the first sum carried over from point (i, 0), the second computed at (i, 1), ρ (o, n) = Σ_d W₁ (o, d) · x (n, d) + b (o)
  carried over from the first point of the grid: the projected form at row i·1024 + p and feature o. The four row blocks
  tile the 4096 rows (row r is in block r / 1024), so the whole array is the projected form.
-/
import proofs.«136983_g17815524344015_cont_8to1_1399_24_alg».proof.Proof.Gen.KernelIdeal.Value
import proofs.«136983_g17815524344015_cont_8to1_1399_24_alg».proof.Proof.KernelFold
import proofs.«136983_g17815524344015_cont_8to1_1399_24_alg».proof.Proof.PayloadRead
import proofs.«136983_g17815524344015_cont_8to1_1399_24_alg».proof.Proof.EntryBlocks
import proofs.«136983_g17815524344015_cont_8to1_1399_24_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Pieces Cert.KernelIdeal.Fold
open Cert.KernelIdeal.PayloadRead Cert.KernelIdeal.EntryBlocks
open Idealize.ShloMosaic Idealize.ShloMosaic.TcCoe Idealize.ShloMosaic.ValueIdx Idealize.SL.Sem
open Idealize.ShloMosaic.Pipeline (Dat)

variable {F : FTy → Type} [FloatOps F]

/-- The column offset of the window of z and the column offset of the window of ρ at each grid point t = 2·i + j:
    j·2048 and i·1024 (row offsets zero), decided over the eight points. -/
theorem off_facts : ∀ t : Fin cfg0.N, k0_off1 (grid0.coords t) (0 : Fin 2) = 0 ∧ k0_off1 (grid0.coords t) (1 : Fin 2) = (t.val % 2) * 2048
    ∧ k0_off2 (grid0.coords t) (0 : Fin 2) = 0 ∧ k0_off2 (grid0.coords t) (1 : Fin 2) = (t.val / 2) * 1024 :=
  (by decide +kernel : ∀ t : Fin grid0.N, _)

/-- The output window's block index at point t = 2·i + j is (i, 0), decided over the eight points. -/
theorem out_idx : ∀ t : Fin cfg0.N, win0_5.index t (0 : Fin 2) = t.val / 2 ∧ win0_5.index t (1 : Fin 2) = 0 :=
  (by decide +kernel : ∀ t : Fin grid0.N, _)

/-- Row i·1024 + p of the 4096 rows: row p of the row block that point t = 2·i + j works on. -/
def rowOf (t : Fin cfg0.N) (p : Fin 1024) : Fin 4096 :=
  ⟨(t.val / 2) * 1024 + p.val, by have := t.isLt; have : cfg0.N = 8 := N_0; have := p.isLt; omega⟩

/-- The column half j of point t = 2·i + j. -/
def halfOf (t : Fin cfg0.N) : Fin 2 := ⟨t.val % 2, Nat.mod_lt _ (by decide)⟩

/-- The window of z at point t, at (o, k): z at column j·2048 + k. -/
theorem zwin_apply (t : Fin cfg0.N) (Z : Vec F S64x4096 .bf16) (o : Fin 64) (k : Fin 2048) :
    zwin (grid0.coords t) Z (ix2 o k) = Z (ix2 o (Cert.Spec.col (halfOf t) k)) := by
  obtain ⟨e0, e1, -, -⟩ := off_facts t
  show Z _ = Z _
  congr 1
  funext a
  apply Fin.ext
  match a with
  | ⟨0, _⟩ => show k0_off1 (grid0.coords t) (0 : Fin 2) + 1 * o.val = o.val; omega
  | ⟨1, _⟩ => show k0_off1 (grid0.coords t) (1 : Fin 2) + 1 * k.val = (t.val % 2) * 2048 + k.val; omega

/-- The window of ρ at a point t of the second column half, at (o, p): ρ at column i·1024 + p. -/
theorem rwin_apply (t : Fin cfg0.N) (h : cond0_2 (grid0.coords t)) (R : Vec F S64x4096 .f32) (o : Fin 64) (p : Fin 1024) :
    rwin (grid0.coords t) h R (ix2 o p) = R (ix2 o (rowOf t p)) := by
  obtain ⟨-, -, e2, e3⟩ := off_facts t
  show R _ = R _
  congr 1
  funext a
  apply Fin.ext
  match a with
  | ⟨0, _⟩ => show k0_off2 (grid0.coords t) (0 : Fin 2) + 1 * o.val = o.val; omega
  | ⟨1, _⟩ => show k0_off2 (grid0.coords t) (1 : Fin 2) + 1 * p.val = (t.val / 2) * 1024 + p.val; omega

/-- An index of the result array is in point t's output block iff its row is in the point's row block. -/
theorem mem_blk (t : Fin cfg0.N) (i : S4096x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v0).slice (win0_5.rect t)).set ↔ _
  rw [View.set_slice_whole, Rect.mem_set_unit]
  exact Iff.rfl

/-- Every index of the result array is in the output block of a point that writes its block back: row r is in row block
    r / 1024, written back by point 2·(r / 1024) + 1. -/
theorem cover (i : S4096x64.Idx) : ∃ t : Fin cfg0.N, (cfg0.win 5).flush t = true ∧ i ∈ ((cfg0.win 5).blk t).view.set := by
  have hN : cfg0.N = 8 := N_0
  have hi0 : (i 0).val < 4096 := (i 0).isLt
  have hi1 : (i 1).val < 64 := (i 1).isLt
  refine ⟨⟨2 * ((i 0).val / 1024) + 1, by omega⟩, (flush0_5 _).mpr (by dsimp only; omega), ?_⟩
  rw [mem_blk]
  obtain ⟨q0, q1⟩ := out_idx ⟨2 * ((i 0).val / 1024) + 1, by omega⟩
  dsimp only at q0 q1
  intro a
  match a with
  | ⟨0, _⟩ => show win0_5.index _ (0 : Fin 2) * 1024 ≤ (i 0).val ∧ (i 0).val < win0_5.index _ (0 : Fin 2) * 1024 + 1024; omega
  | ⟨1, _⟩ => show win0_5.index _ (1 : Fin 2) * 64 ≤ (i 1).val ∧ (i 1).val < win0_5.index _ (1 : Fin 2) * 64 + 64; omega

variable (m : (ℓ : Loc nD τ sig) → Buf (Elt Ideal) ℓ) (ρ : Dev nD → PrngReg)

/-- The four argument arrays on device c: the operator, the features, the weights, the bias. -/
abbrev aL (c : Dev nD) : Cert.Spec.SL.Idx → EReal := m ((c : Thread nD τ).loc main_arg0)
abbrev ax (c : Dev nD) : Cert.Spec.SX.Idx → EReal := m ((c : Thread nD τ).loc main_arg1)
abbrev aW (c : Dev nD) : Cert.Spec.SW.Idx → EReal := m ((c : Thread nD τ).loc main_arg2)
abbrev ab (c : Dev nD) : Cert.Spec.SB.Idx → EReal := m ((c : Thread nD τ).loc main_arg3)

/-- The projected form of the layer, of the argument arrays: what the result array ends holding. -/
abbrev G (c : Dev nD) : S4096x64.Idx → EReal := Cert.Spec.kerG (aL m c) (ax m c) (aW m c) (ab m c)

/-- The first carried buffer at (o, n) is z (o, n) of the argument arrays. -/
theorem Z_apply (c : Dev nD) (o : Fin 64) (n : Fin 4096) :
    (Z m c (ix2 o n) : EReal) = Cert.Spec.zT (ax m c) (aW m c) o n := by
  unfold Z
  rw [pay1_apply]
  unfold Cert.Spec.zT
  exact Finset.sum_congr rfl fun d _ => congrArg₂ (· * ·) (iblk3_apply m c first o d) (iblk1_apply m c first d n)

/-- The second carried buffer at (o, n) is ρ (o, n) of the argument arrays. -/
theorem Rho_apply (c : Dev nD) (o : Fin 64) (n : Fin 4096) :
    (Rho m c (ix2 o n) : EReal) = Cert.Spec.rT (ax m c) (aW m c) (ab m c) o n := by
  unfold Rho
  rw [pay2_apply]
  unfold Cert.Spec.rT
  exact congrArg₂ (· + ·) (Finset.sum_congr rfl fun d _ => congrArg₂ (· * ·) (iblk2_apply m c first o d) (iblk1_apply m c first d n))
    (iblk4_apply m c first o)

/-- Point t's product at (o, p): its half of the operator applied to the projected features, at row p of its row block. -/
theorem partial_apply (c : Dev nD) (t : Fin cfg0.N) (o : Fin 64) (p : Fin 1024) :
    (partialAt m c t (ix2 o p) : EReal) = Cert.Spec.part (aL m c) (ax m c) (aW m c) (halfOf t) o (rowOf t p) := by
  unfold partialAt
  rw [pay4_apply]
  unfold Cert.Spec.part
  exact Finset.sum_congr rfl fun k _ => by
    rw [zwin_apply, Z_apply]
    exact congrArg (_ * ·) (iblk0_apply m c t p k)

/-- The output block a point (i, 1) stores, at (p, o): the projected form of the layer at row i·1024 + p, feature o. -/
theorem out_apply (c : Dev nD) (n : ℕ) (h : n + 1 < cfg0.N) (h2 : (n + 1) % 2 = 1) (p : Fin 1024) (o : Fin 64) :
    ((outsAt0 m c (n + 1) h).1 (ix2 p o) : EReal) = G m c (ix2 (rowOf ⟨n + 1, h⟩ p) o) := by
  have hN : cfg0.N = 8 := N_0
  rw [out_second m c n h h2, pay5_apply, partial_apply, rwin_apply, Rho_apply]
  have hs : (∑ k : Fin 2048, (zwin (grid0.coords ⟨n + 1, h⟩) (Z m c) (ix2 o k) : EReal) * (Lblk m c ⟨n + 1, h⟩ (ix2 p k) : EReal))
      = Cert.Spec.part (aL m c) (ax m c) (aW m c) (halfOf ⟨n + 1, h⟩) o (rowOf ⟨n + 1, h⟩ p) :=
    (pay4_apply _ _ o p).symm.trans (partial_apply m c ⟨n + 1, h⟩ o p)
  rw [hs]
  have e0 : halfOf ⟨n, Nat.lt_of_succ_lt h⟩ = 0 := Fin.ext (by show n % 2 = 0; omega)
  have e1 : halfOf ⟨n + 1, h⟩ = 1 := Fin.ext (by show (n + 1) % 2 = 1; omega)
  have er : rowOf ⟨n, Nat.lt_of_succ_lt h⟩ p = rowOf ⟨n + 1, h⟩ p := Fin.ext (by show n / 2 * 1024 + p.val = (n + 1) / 2 * 1024 + p.val; omega)
  rw [e0, e1, er]
  rfl

/-- The same at any index y of the output block. -/
theorem out_block_apply (c : Dev nD) (n : ℕ) (h : n + 1 < cfg0.N) (h2 : (n + 1) % 2 = 1) (y : S1024x64.Idx) :
    ((outsAt0 m c (n + 1) h).1 y : EReal) = G m c (ix2 (rowOf ⟨n + 1, h⟩ (y 0)) (y 1)) := by
  exact (congrArg (fun j => ((outsAt0 m c (n + 1) h).1 j : EReal)) (eq_ix2 y)).trans (out_apply m c n h h2 (y 0) (y 1))

/-- What a point writes back is its block of the projected form of the argument arrays. -/
theorem flushed_eq (c : Dev nD) (t : Fin cfg0.N) (hf : (cfg0.win 5).flush t = true) :
    (dats m 0 c).flushed 5 t = ((cfg0.win 5).blk t).view.read (Elt Ideal) (G m c) := by
  have h2 : t.val % 2 = 1 := (flush0_5 t).mp hf
  obtain ⟨n1, hn1⟩ := t
  cases n1 with
  | zero => exact absurd h2 (show ¬(0 % 2 = 1) by decide)
  | succ n =>
    rw [Cert.KernelIdeal.Value.flushed5]
    funext y
    obtain ⟨q0, q1⟩ := out_idx ⟨n + 1, hn1⟩
    show (outsAt0 m c (n + 1) hn1).1 y = G m c (((cfg0.win 5).blk ⟨n + 1, hn1⟩).view.emb y)
    refine (out_block_apply m c n hn1 h2 y).trans (congrArg (G m c) ?_)
    funext a
    apply Fin.ext
    match a with
    | ⟨0, _⟩ => show (n + 1) / 2 * 1024 + (y 0).val = win0_5.index ⟨n + 1, hn1⟩ (0 : Fin 2) * 1024 + 1 * (y 0).val; dsimp only at q0; omega
    | ⟨1, _⟩ => show (y 1).val = win0_5.index ⟨n + 1, hn1⟩ (1 : Fin 2) * 64 + 1 * (y 1).val; omega

/-- The result array after the run is the projected form of the layer of the argument arrays. -/
theorem final (c : Dev nD) : (dats m 0 c).arrAt 5 cfg0.N = G m c :=
  (dats m 0 c).arrAt_eq_of_cover 5 (G m c) (flushed_eq m c) cover

/-- The run, read: the result array at the projected form of the argument arrays, the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.lean ====
/-
  The certificate: a spectral graph-convolution layer of Chebyshev order two, computed two ways.

  Inputs: an operator L [4096, 4096], features x [4096, 64], weights W = [W₁ | W₂] [64, 128] and a bias b [64]. The
  reference builds X = [x | L·x] and returns X·Wᵀ + b. The kernel first projects the features, z = W₂·xᵀ and
  ρ = W₁·xᵀ + b, keeps them for the whole grid, and returns (z·Lᵀ + ρ)ᵀ row block by row block, the 4096 columns of L taken
  in two halves whose products are added. Over the reals the two are equal because (L·x)·W₂ᵀ = L·(x·W₂ᵀ) — two finite sums
  exchanged and a product distributed over them —, and every entry of every input is real under the precondition (each
  |entry| < +∞); at an infinity the distributive law fails, which is why the precondition is used.

  The three frames: the kernel's two are the generated frames; the reference has no kernel, and its frame is its generated
  run with the result forgotten. The idealization rewrote nothing, so what it preserves is trivial. For the value claim:
  the kernel's result array is the projected form of the argument arrays (Proof/KernelBlocks.lean: the pieces each grid point
  stores, the induction over the points for the three buffers the body carries, the payloads and the blocks read at an index,
  the blocks tiling the array); the reference's result is the reference form (Proof/RefStage.lean over its generated run);
  and the two forms agree on real inputs (Proof/Spec.lean, Proof/FiniteInputs.lean).
-/
import proofs.«136983_g17815524344015_cont_8to1_1399_24_alg».proof.Defs
import proofs.«136983_g17815524344015_cont_8to1_1399_24_alg».proof.Proof.Gen.Kernel
import proofs.«136983_g17815524344015_cont_8to1_1399_24_alg».proof.Proof.Gen.Kernel.Skeleton
import proofs.«136983_g17815524344015_cont_8to1_1399_24_alg».proof.Proof.Gen.Kernel.Launch
import proofs.«136983_g17815524344015_cont_8to1_1399_24_alg».proof.Proof.Gen.Kernel.Points
import proofs.«136983_g17815524344015_cont_8to1_1399_24_alg».proof.Proof.Gen.Kernel.Frame
import proofs.«136983_g17815524344015_cont_8to1_1399_24_alg».proof.Proof.Gen.KernelIdeal
import proofs.«136983_g17815524344015_cont_8to1_1399_24_alg».proof.Proof.Gen.KernelIdeal.Skeleton
import proofs.«136983_g17815524344015_cont_8to1_1399_24_alg».proof.Proof.Gen.KernelIdeal.Launch
import proofs.«136983_g17815524344015_cont_8to1_1399_24_alg».proof.Proof.Gen.KernelIdeal.Points
import proofs.«136983_g17815524344015_cont_8to1_1399_24_alg».proof.Proof.Gen.KernelIdeal.Frame
import proofs.«136983_g17815524344015_cont_8to1_1399_24_alg».proof.Proof.Gen.ReferenceIdeal
import proofs.«136983_g17815524344015_cont_8to1_1399_24_alg».proof.Proof.Gen.Pre_finite_inputs
import proofs.«136983_g17815524344015_cont_8to1_1399_24_alg».proof.Proof.Gen.KernelIdeal.Value
import proofs.«136983_g17815524344015_cont_8to1_1399_24_alg».proof.Proof.Gen.ReferenceIdeal.Run
import proofs.«136983_g17815524344015_cont_8to1_1399_24_alg».proof.Proof.Gen.ReferenceIdeal.Read
import proofs.«136983_g17815524344015_cont_8to1_1399_24_alg».proof.Proof.Spec
import proofs.«136983_g17815524344015_cont_8to1_1399_24_alg».proof.Proof.FiniteInputs
import proofs.«136983_g17815524344015_cont_8to1_1399_24_alg».proof.Proof.RefStage
import proofs.«136983_g17815524344015_cont_8to1_1399_24_alg».proof.Proof.KernelBlocks
import Idealize.ShloMosaic.Adequacy
import Idealize.ShloMosaic.Init

noncomputable section

namespace Cert.Proof

open Idealize.ShloMosaic Idealize.ShloMosaic.TcCoe Idealize.SL.Sem

/-- The kernel as printed runs, and leaves its four arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is seven host operations: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, on inputs whose entries are all finite, the kernel's result array — the projected form
    (z·Lᵀ + ρ)ᵀ of the arguments — and the reference's — [x | L·x]·Wᵀ + b of arguments that agree — are equal entry by entry. -/
theorem algebraic : Cert.algebraic_KernelIdeal_ReferenceIdeal := by
  intro m ρ m' ρ' hpre hagree
  refine ⟨fun c => Cert.KernelIdeal.Blocks.G m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  -- every entry of the four arguments is a real number
  obtain ⟨hL, hx, hW, hb⟩ := Cert.FiniteInputs.real_of_pre _ _ _ _ (hpre c)
  -- the reference's term is the reference form, of arguments that are the kernel's
  rw [Cert.ReferenceIdeal.Read.val_main_v6_eq, Cert.RefStage.stage_eq, (hagree c).1, (hagree c).2.1, (hagree c).2.2.1,
    (hagree c).2.2.2]
  -- and on real arguments the reference form is the projected form
  exact (Cert.Spec.kerG_eq_refG _ _ _ _ hL hx hW hb).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
